-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S4000x128 : Shape := ⟨2, ![4000, 128]⟩

abbrev nBuf : Space → Nat
  | .hbm => 26
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S1x128, .f32⟩
  | .hbm, ⟨24, _⟩ => ⟨S1x128, .f32⟩
  | .hbm, ⟨25, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowNet.lean ====
/-
  The network one node's row goes through, as a function on the extended reals.

  A graph-isomorphism layer sends node r's feature row x[r, ·], with the sum a[r, ·] of its in-neighbours'
  rows added, through two dense layers with a rectifier between them:
    hidden k = max (∑ l, (x[r, l] + a[r, l]) · W1[k, l] + b1[k]) 0
    out q    = ∑ k, hidden k · W2[q, k] + b2[q].
  Both weight matrices are contracted along their SECOND axis (the product with the transposed matrix).
  The row function does not know how many rows there are: it describes a tile of rows as it describes the whole
  array, which is what lets a row-tiled computation be compared with an untiled one.
-/
import Idealize.ShloMosaic.Lib.ValueIdx

noncomputable section

namespace Cert.RowNet

open Idealize.ShloMosaic Idealize.ShloMosaic.ValueIdx

/-- The first dense layer and the rectifier: hidden unit `k` of a row whose two summands are `xr` and `ar`. -/
def hidden (xr ar : Fin 128 → EReal) (W1 : Fin 128 → Fin 128 → EReal) (b1 : Fin 128 → EReal) (k : Fin 128) : EReal :=
  max ((∑ l : Fin 128, (xr l + ar l) * W1 k l) + b1 k) 0

/-- The whole row function: output unit `q`. -/
def out (xr ar : Fin 128 → EReal) (W1 : Fin 128 → Fin 128 → EReal) (b1 : Fin 128 → EReal)
    (W2 : Fin 128 → Fin 128 → EReal) (b2 : Fin 128 → EReal) (q : Fin 128) : EReal :=
  (∑ k : Fin 128, hidden xr ar W1 b1 k * W2 q k) + b2 q

/-- The layer over all 100000 nodes: entry `(r, q)` is the row function of row `r` of the features `x` and of the
    neighbour sums `a`, with the weights and biases read from their arrays. -/
def layer (x a : FVec Ideal ⟨2, ![100000, 128]⟩ .f32) (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) : FVec Ideal ⟨2, ![100000, 128]⟩ .f32 :=
  fun i => out (fun l => x (ix2 (⟨(i 0).val, idx2_lt0 i⟩ : Fin 100000) l)) (fun l => a (ix2 (⟨(i 0).val, idx2_lt0 i⟩ : Fin 100000) l))
    (fun k l => W1 (ix2 k l)) (fun k => b1 (ix1 k)) (fun q k => W2 (ix2 q k)) (fun q => b2 (ix1 q)) (⟨(i 1).val, idx2_lt1 i⟩ : Fin 128)

/-- The layer read at explicit coordinates. -/
theorem layer_apply (x a : FVec Ideal ⟨2, ![100000, 128]⟩ .f32) (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (r : Fin 100000) (q : Fin 128) :
    layer x a W1 b1 W2 b2 (ix2 r q)
      = out (fun l => x (ix2 r l)) (fun l => a (ix2 r l)) (fun k l => W1 (ix2 k l)) (fun k => b1 (ix1 k))
          (fun q k => W2 (ix2 q k)) (fun q => b2 (ix1 q)) q := rfl

/-- The layer depends on its six arrays only through their values. -/
theorem layer_congr {x x' a a' : FVec Ideal ⟨2, ![100000, 128]⟩ .f32} {W1 W1' : FVec Ideal ⟨2, ![128, 128]⟩ .f32}
    {b1 b1' : FVec Ideal ⟨1, ![128]⟩ .f32} {W2 W2' : FVec Ideal ⟨2, ![128, 128]⟩ .f32} {b2 b2' : FVec Ideal ⟨1, ![128]⟩ .f32}
    (hx : x = x') (ha : a = a') (hW1 : W1 = W1') (hb1 : b1 = b1') (hW2 : W2 = W2') (hb2 : b2 = b2') :
    layer x a W1 b1 W2 b2 = layer x' a' W1' b1' W2' b2' := by
  subst hx ha hW1 hb1 hW2 hb2; rfl

end Cert.RowNet

end
-- ==== Proof.TileRow.lean ====
/-
  One tile of the kernel's output, entry by entry.

  At a grid point the kernel holds a tile of 4000 rows of the features `x` and of the neighbour sums `a`, the two
  weight matrices whole and the two biases as 1 × 128 rows.  What it stores is, at `(p, q)`, the row network of row `p`
  of the two tiles (Proof/RowNet.lean): the sum `x + a` is contracted with `W1` along both operands' second axis (a
  product with the transposed matrix, into a zero accumulator), the bias row is added to every row, the rectifier is the
  maximum with zero, and the second layer repeats the pattern.  A change of float format is the identity on extended
  reals, so the narrowing before each product leaves no trace.
-/
import proofs.«170019_j13529146982749_1_alg».proof.Proof.Gen.KernelIdeal.Skeleton
import proofs.«170019_j13529146982749_1_alg».proof.Proof.RowNet
import Idealize.ShloMosaic.Lib.Pipeline.Value
import Idealize.ShloMosaic.Lib.ValueIdx
import Idealize.ShloMosaic.PureOps.Ideal.Laws

noncomputable section

namespace Cert.KernelIdeal.TileRow

open Cert.KernelIdeal Cert.KernelIdeal.Gen Idealize.ShloMosaic Idealize.ShloMosaic.ValueIdx

/-! ## The product with a transposed 128 × 128 matrix, read at an index -/

theorem lhs_axis0 (i : S4000x128.Idx) (q : dot_S4000x128_S128x128_S4000x128_1_1_0_0_n_n.contr.Idx) :
    (dot_S4000x128_S128x128_S4000x128_1_1_0_0_n_n.lhsIdx i q 0).val = (i 0).val := by
  unfold DotDims.lhsIdx
  rw [dif_neg (show ¬(0 : Fin S4000x128.rank) ∈ dot_S4000x128_S128x128_S4000x128_1_1_0_0_n_n.lhsBatch by decide), dif_pos (show (0 : Fin S4000x128.rank) ∈ dot_S4000x128_S128x128_S4000x128_1_1_0_0_n_n.lhsNonContracting by decide)]
  rfl
theorem lhs_axis1 (i : S4000x128.Idx) (q : dot_S4000x128_S128x128_S4000x128_1_1_0_0_n_n.contr.Idx) :
    (dot_S4000x128_S128x128_S4000x128_1_1_0_0_n_n.lhsIdx i q 1).val = (q ⟨0, by decide⟩).val :=
  dot_S4000x128_S128x128_S4000x128_1_1_0_0_n_n.lhsIdx_val_of_single rfl i q
theorem rhs_axis0 (i : S4000x128.Idx) (q : dot_S4000x128_S128x128_S4000x128_1_1_0_0_n_n.contr.Idx) :
    (dot_S4000x128_S128x128_S4000x128_1_1_0_0_n_n.rhsIdx i q 0).val = (i 1).val := by
  unfold DotDims.rhsIdx
  rw [dif_neg (show ¬(0 : Fin S128x128.rank) ∈ dot_S4000x128_S128x128_S4000x128_1_1_0_0_n_n.rhsBatch by decide), dif_pos (show (0 : Fin S128x128.rank) ∈ dot_S4000x128_S128x128_S4000x128_1_1_0_0_n_n.rhsNonContracting by decide)]
  rfl
theorem rhs_axis1 (i : S4000x128.Idx) (q : dot_S4000x128_S128x128_S4000x128_1_1_0_0_n_n.contr.Idx) :
    (dot_S4000x128_S128x128_S4000x128_1_1_0_0_n_n.rhsIdx i q 1).val = (q ⟨0, by decide⟩).val :=
  dot_S4000x128_S128x128_S4000x128_1_1_0_0_n_n.rhsIdx_val_of_single rfl i q

/-- Into a zero accumulator, the product of a 4000 × 128 tile `A` with the TRANSPOSE of a 128 × 128 matrix `B`:
    entry `(p, k)` is `∑ l, A[p, l] · B[k, l]`. -/
theorem matmulT_apply {φ₁ φ₂ : FTy} (A : FVec Ideal S4000x128 φ₁) (B : FVec Ideal S128x128 φ₂) (p : Fin 4000) (k : Fin 128) :
    matmul dot_S4000x128_S128x128_S4000x128_1_1_0_0_n_n none A B (constant S4000x128 .f32 0x00000000#32) (ix2 p k)
      = ∑ l : Fin 128, A (ix2 p l) * B (ix2 k l) := by
  simp only [matmul]
  rw [Ideal.matmul_constant_zero_apply, ← Equiv.sum_comp (ValueIdx.contrEquiv1 dot_S4000x128_S128x128_S4000x128_1_1_0_0_n_n 128 rfl rfl).symm]
  refine Finset.sum_congr rfl fun l _ => ?_
  have hl := ValueIdx.contrEquiv1_symm_val dot_S4000x128_S128x128_S4000x128_1_1_0_0_n_n 128 rfl rfl l
  have el : dot_S4000x128_S128x128_S4000x128_1_1_0_0_n_n.lhsIdx (ix2 p k) ((ValueIdx.contrEquiv1 dot_S4000x128_S128x128_S4000x128_1_1_0_0_n_n 128 rfl rfl).symm l) = ix2 p l := funext fun a => Fin.ext (by
    match a with
    | ⟨0, _⟩ => exact lhs_axis0 _ _
    | ⟨1, _⟩ => exact (lhs_axis1 _ _).trans hl)
  have er : dot_S4000x128_S128x128_S4000x128_1_1_0_0_n_n.rhsIdx (ix2 p k) ((ValueIdx.contrEquiv1 dot_S4000x128_S128x128_S4000x128_1_1_0_0_n_n 128 rfl rfl).symm l) = ix2 k l := funext fun a => Fin.ext (by
    match a with
    | ⟨0, _⟩ => exact rhs_axis0 _ _
    | ⟨1, _⟩ => exact (rhs_axis1 _ _).trans hl)
  rw [el, er]

/-! ## A 1 × 128 row laid over the 4000 rows -/

/-- The bias row broadcast over the tile reads, at `(p, k)`, the row's entry `k`. -/
theorem rowOver_apply {α : Type} (v : S1x128.Idx → α) (p : Fin 4000) (k : Fin 128) :
    broadcastTo S4000x128 v broadcasts_S1x128_S4000x128 (ix2 p k) = v (ix2 (0 : Fin 1) k) := by
  refine broadcastTo_apply v broadcasts_S1x128_S4000x128 (ix2 p k) (ix2 (0 : Fin 1) k) fun ax => ?_
  match ax with
  | ⟨0, _⟩ => rfl
  | ⟨1, _⟩ => rfl

/-! ## The stored tile -/

/-- THE TILE AT `(p, q)`: the row network of row `p` of the two loaded tiles, with the loaded weights and bias rows. -/
theorem pay_apply (v0 v1 : Vec Ideal S4000x128 .f32) (v5 : Vec Ideal S128x128 .f32) (v8 : Vec Ideal S1x128 .f32)
    (v15 : Vec Ideal S128x128 .f32) (v18 : Vec Ideal S1x128 .f32) (p : Fin 4000) (q : Fin 128) :
    k0_pay1 (F := Ideal) v0 v1 v5 v8 v15 v18 (ix2 p q)
      = Cert.RowNet.out (fun l => v0 (ix2 p l)) (fun l => v1 (ix2 p l)) (fun k l => v5 (ix2 k l)) (fun k => v8 (ix2 (0 : Fin 1) k))
          (fun q k => v15 (ix2 q k)) (fun q => v18 (ix2 (0 : Fin 1) q)) q := by
  unfold k0_pay1 Cert.RowNet.out Cert.RowNet.hidden
  simp only [shapeCast_self]
  rw [addf_apply, matmulT_apply, rowOver_apply]
  refine congrArg (· + v18 (ix2 (0 : Fin 1) q)) (Finset.sum_congr rfl fun k _ => ?_)
  rw [truncf_apply, truncf_apply, maximumf_apply, addf_apply, matmulT_apply, rowOver_apply, broadcast_apply]
  refine congrArg₂ (· * ·) (congrArg₂ max (congrArg (· + v8 (ix2 (0 : Fin 1) k)) (Finset.sum_congr rfl fun l _ => ?_)) Ideal.ofBits_zero_f32) rfl
  rw [truncf_apply, truncf_apply, addf_apply]

end Cert.KernelIdeal.TileRow

end
-- ==== Proof.WholeArray.lean ====
/-
  From tiles to the whole array.

  The grid has 25 points; point `t` reads rows `4000 t … 4000 t + 3999` of the features and of the neighbour sums,
  reads both weight matrices and both bias rows whole, and writes rows `4000 t … 4000 t + 3999` of the result.
  Since the row network (Proof/RowNet.lean) treats every row by itself, the tile point `t` writes is exactly those rows
  of the layer over the whole arrays; the 25 tiles cover all 100000 rows, so the result array ends holding the layer.
-/
import proofs.«170019_j13529146982749_1_alg».proof.Proof.Gen.KernelIdeal.Value
import proofs.«170019_j13529146982749_1_alg».proof.Proof.TileRow
import Idealize.ShloMosaic.Lib.Pipeline.Value
import Idealize.ShloMosaic.Lib.StableHlo.Run
import Idealize.ShloMosaic.Lib.Tactic

noncomputable section

namespace Cert.KernelIdeal.WholeArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- Where each window's block sits at point `t`: the two row-tiled inputs and the output at block row `t`, the weights
    and bias rows at their one block. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The arrays the region finds, at their literal types -/

abbrev xArr (c : Dev nD) : FVec Ideal S100000x128 .f32 := V m c main_arg0
abbrev w1Arr (c : Dev nD) : FVec Ideal S128x128 .f32 := V m c main_arg2
abbrev b1Row (c : Dev nD) : FVec Ideal S1x128 .f32 := V m c main_v14
abbrev w2Arr (c : Dev nD) : FVec Ideal S128x128 .f32 := V m c main_arg4
abbrev b2Row (c : Dev nD) : FVec Ideal S1x128 .f32 := V m c main_v15

/-- The first bias as the region finds it is the argument vector laid out as one row. -/
theorem b1Row_eq (c : Dev nD) :
    b1Row m c = shapeCast S1x128 (m ((c : Thread nD τ).loc main_arg3) : FVec Ideal S128 .f32) shapeCasts_S128_S1x128 := by
  show V m c main_v14 = _
  dsimp only [Gen.V, Gen.hostOps0]; after_results; rfl
/-- The second bias likewise. -/
theorem b2Row_eq (c : Dev nD) :
    b2Row m c = shapeCast S1x128 (m ((c : Thread nD τ).loc main_arg5) : FVec Ideal S128 .f32) shapeCasts_S128_S1x128 := by
  show V m c main_v15 = _
  dsimp only [Gen.V, Gen.hostOps0]; after_results; rfl

/-- A vector laid out as one row reads, at `(0, k)`, its entry `k`. -/
theorem asRow_apply (v : FVec Ideal S128 .f32) (k : Fin 128) :
    shapeCast S1x128 v shapeCasts_S128_S1x128 (ix2 (0 : Fin 1) k) = v (ix1 k) :=
  shapeCast_apply v shapeCasts_S128_S1x128 _ _ (by
    rewrite [Shape.rowMajor_val_one, Shape.rowMajor_val_two]
    show k.val = 0 * 128 + k.val
    omega)

/-! ## Each window's block at a point, as entries of its array -/

/-- Row `p` of the feature tile at point `t` is row `4000 t + p` of the features. -/
theorem xTile_apply (c : Dev nD) (t : Fin cfg0.N) (p : Fin 4000) (l : Fin 128) (r : Fin 100000) (hr : r.val = t.val * 4000 + p.val) :
    (iblk m c 0 t : Vec Ideal S4000x128 .f32) (ix2 p l) = xArr m c (ix2 r l) := by
  obtain ⟨e0, e1, -⟩ := tile_index t
  unfold iblk
  rw [View.read_apply]
  show V m c main_arg0 _ = V m c main_arg0 _
  congr 1
  funext a; apply Fin.ext
  match a with
  | ⟨0, _⟩ => show win0_0.index t (0 : Fin 2) * 4000 + 1 * p.val = r.val; rw [e0, hr]; omega
  | ⟨1, _⟩ => show win0_0.index t (1 : Fin 2) * 128 + 1 * l.val = l.val; rw [e1]; omega

/-- The first weight matrix is read whole at every point. -/
theorem w1Tile_apply (c : Dev nD) (t : Fin cfg0.N) (k l : Fin 128) :
    (iblk m c 2 t : Vec Ideal S128x128 .f32) (ix2 k l) = w1Arr m c (ix2 k l) := by
  obtain ⟨-, -, -, -, e0, e1, -⟩ := tile_index t
  unfold iblk
  rw [View.read_apply]
  show V m c main_arg2 _ = V m c main_arg2 _
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * l.val = l.val; rw [e1]; omega

/-- The first bias row is read whole at every point. -/
theorem b1Tile_apply (c : Dev nD) (t : Fin cfg0.N) (k : Fin 128) :
    (iblk m c 3 t : Vec Ideal S1x128 .f32) (ix2 (0 : Fin 1) k) = b1Row m c (ix2 (0 : Fin 1) k) := by
  obtain ⟨-, -, -, -, -, -, e0, e1, -⟩ := tile_index t
  unfold iblk
  rw [View.read_apply]
  show V m c main_v14 _ = V m c main_v14 _
  congr 1
  funext a; apply Fin.ext
  match a with
  | ⟨0, _⟩ => show win0_3.index t (0 : Fin 2) * 1 + 1 * 0 = 0; rw [e0]
  | ⟨1, _⟩ => show win0_3.index t (1 : Fin 2) * 128 + 1 * k.val = k.val; rw [e1]; omega

/-- The second weight matrix is read whole at every point. -/
theorem w2Tile_apply (c : Dev nD) (t : Fin cfg0.N) (k l : Fin 128) :
    (iblk m c 4 t : Vec Ideal S128x128 .f32) (ix2 k l) = w2Arr m c (ix2 k l) := by
  obtain ⟨-, -, -, -, -, -, -, -, e0, e1, -⟩ := tile_index t
  unfold iblk
  rw [View.read_apply]
  show V m c main_arg4 _ = V m c main_arg4 _
  congr 1
  funext a; apply Fin.ext
  match a with
  | ⟨0, _⟩ => show win0_4.index t (0 : Fin 2) * 128 + 1 * k.val = k.val; rw [e0]; omega
  | ⟨1, _⟩ => show win0_4.index t (1 : Fin 2) * 128 + 1 * l.val = l.val; rw [e1]; omega

/-- The second bias row is read whole at every point. -/
theorem b2Tile_apply (c : Dev nD) (t : Fin cfg0.N) (k : Fin 128) :
    (iblk m c 5 t : Vec Ideal S1x128 .f32) (ix2 (0 : Fin 1) k) = b2Row m c (ix2 (0 : Fin 1) k) := by
  obtain ⟨-, -, -, -, -, -, -, -, -, -, e0, e1, -⟩ := tile_index t
  unfold iblk
  rw [View.read_apply]
  show V m c main_v15 _ = V m c main_v15 _
  congr 1
  funext a; apply Fin.ext
  match a with
  | ⟨0, _⟩ => show win0_5.index t (0 : Fin 2) * 1 + 1 * 0 = 0; rw [e0]
  | ⟨1, _⟩ => show win0_5.index t (1 : Fin 2) * 128 + 1 * k.val = k.val; rw [e1]; omega

/-! ## The neighbour sums, whatever they hold

The neighbour-sum array is the one input a host computation wrote before the region.  Everything below that reads it
at an index is stated for ARBITRARY contents `A` of that array and only at the end applied to what the region finds:
the tiling argument uses nothing about the sums but their shape. -/

section AnySums
variable (c : Dev nD) (A : Buf (Elt Ideal) ((c : Thread nD τ).loc (Pipeline.arrRef spec0 1)))

/-- The neighbour-sum tile at point `t`: contents `A` read through window 1's block. -/
abbrev aTile (t : Fin cfg0.N) : Vec Ideal S4000x128 .f32 := ((cfg0.win 1).blk t).view.read (Elt Ideal) A

/-- Row `p` of the neighbour-sum tile at point `t` is row `4000 t + p` of the neighbour sums. -/
theorem aTile_apply (t : Fin cfg0.N) (p : Fin 4000) (l : Fin 128) (r : Fin 100000) (hr : r.val = t.val * 4000 + p.val) :
    aTile c A t (ix2 p l) = (A : FVec Ideal S100000x128 .f32) (ix2 r l) := by
  obtain ⟨-, -, e0, e1, -⟩ := tile_index t
  unfold aTile
  rewrite [View.read_apply]
  refine congrArg A ?_
  funext a; apply Fin.ext
  match a with
  | ⟨0, _⟩ => show win0_1.index t (0 : Fin 2) * 4000 + 1 * p.val = r.val; rw [e0, hr]; omega
  | ⟨1, _⟩ => show win0_1.index t (1 : Fin 2) * 128 + 1 * l.val = l.val; rw [e1]; omega

/-- The six tiles point `t` holds, at their literal types. -/
abbrev xTile (t : Fin cfg0.N) : Vec Ideal S4000x128 .f32 := iblk m c 0 t
abbrev w1Tile (t : Fin cfg0.N) : Vec Ideal S128x128 .f32 := iblk m c 2 t
abbrev b1Tile (t : Fin cfg0.N) : Vec Ideal S1x128 .f32 := iblk m c 3 t
abbrev w2Tile (t : Fin cfg0.N) : Vec Ideal S128x128 .f32 := iblk m c 4 t
abbrev b2Tile (t : Fin cfg0.N) : Vec Ideal S1x128 .f32 := iblk m c 5 t

/-- The layer of the features and of neighbour sums `A`, with the argument weights and biases. -/
abbrev layerOf : FVec Ideal S100000x128 .f32 :=
  Cert.RowNet.layer (xArr m c) A (w1Arr m c) (m ((c : Thread nD τ).loc main_arg3)) (w2Arr m c) (m ((c : Thread nD τ).loc main_arg5))

/-- The tile stored at point `t`, at `(p, q)`, is entry `(4000 t + p, q)` of the layer: the row network of tile row `p`
    is the row network of array row `4000 t + p`, every operand read where its tile sits. -/
theorem tile_apply (t : Fin cfg0.N) (p : Fin 4000) (q : Fin 128) (r : Fin 100000) (hr : r.val = t.val * 4000 + p.val) :
    k0_pay1 (F := Ideal) (xTile m c t) (aTile c A t) (w1Tile m c t) (b1Tile m c t) (w2Tile m c t) (b2Tile m c t) (ix2 p q)
      = layerOf m c A (ix2 r q) := by
  have hx : (fun l : Fin 128 => xTile m c t (ix2 p l)) = fun l => xArr m c (ix2 r l) :=
    funext fun l => xTile_apply m c t p l r hr
  have ha : (fun l : Fin 128 => aTile c A t (ix2 p l)) = fun l => (A : FVec Ideal S100000x128 .f32) (ix2 r l) :=
    funext fun l => aTile_apply c A t p l r hr
  have hw1 : (fun k l : Fin 128 => w1Tile m c t (ix2 k l)) = fun k l => w1Arr m c (ix2 k l) :=
    funext fun k => funext fun l => w1Tile_apply m c t k l
  have hw2 : (fun k l : Fin 128 => w2Tile m c t (ix2 k l)) = fun k l => w2Arr m c (ix2 k l) :=
    funext fun k => funext fun l => w2Tile_apply m c t k l
  have hb1 : (fun k : Fin 128 => b1Tile m c t (ix2 (0 : Fin 1) k))
      = fun k => (m ((c : Thread nD τ).loc main_arg3) : FVec Ideal S128 .f32) (ix1 k) :=
    funext fun k => (b1Tile_apply m c t k).trans ((congrFun (b1Row_eq m c) (ix2 (0 : Fin 1) k)).trans (asRow_apply _ k))
  have hb2 : (fun k : Fin 128 => b2Tile m c t (ix2 (0 : Fin 1) k))
      = fun k => (m ((c : Thread nD τ).loc main_arg5) : FVec Ideal S128 .f32) (ix1 k) :=
    funext fun k => (b2Tile_apply m c t k).trans ((congrFun (b2Row_eq m c) (ix2 (0 : Fin 1) k)).trans (asRow_apply _ k))
  refine (Cert.KernelIdeal.TileRow.pay_apply (xTile m c t) (aTile c A t) (w1Tile m c t) (b1Tile m c t) (w2Tile m c t) (b2Tile m c t) p q).trans ?_
  rewrite [hx, ha, hw1, hb1, hw2, hb2]
  exact (Cert.RowNet.layer_apply (xArr m c) A (w1Arr m c) (m ((c : Thread nD τ).loc main_arg3)) (w2Arr m c) (m ((c : Thread nD τ).loc main_arg5)) r q).symm

/-- The whole stored tile: at tile index `j` it holds the layer at row `4000 t + j₀`, column `j₁`. -/
theorem stored_eq (t : Fin cfg0.N) (ht : t.val < 25) :
    k0_pay1 (F := Ideal) (xTile m c t) (aTile c A t) (w1Tile m c t) (b1Tile m c t) (w2Tile m c t) (b2Tile m c t)
      = fun j : S4000x128.Idx => layerOf m c A
          (ix2 (⟨t.val * 4000 + (j 0).val, by have := idx2_lt0 j; omega⟩ : Fin 100000) (⟨(j 1).val, idx2_lt1 j⟩ : Fin 128)) := by
  funext j
  obtain ⟨p, q, rfl⟩ : ∃ (p : Fin 4000) (q : Fin 128), j = ix2 p q := ⟨j 0, j 1, eq_ix2 j⟩
  exact tile_apply m c A t p q _ rfl

/-- What point `t` leaves in the output window's buffer, cut to the window's block, is block `t` of the layer: the
    window's block at point `t` starts at row `4000 t`, column 0. -/
theorem block_eq (t : Fin cfg0.N) :
    (cfg0.win 6).cut (grid0.coords t) (out0_6 (iblk m c 0 t) (aTile c A t) (iblk m c 2 t) (iblk m c 3 t) (iblk m c 4 t) (iblk m c 5 t))
      = ((cfg0.win 6).blk t).view.read (Elt Ideal) (layerOf m c A) := by
  have ht : t.val < 25 := lt_of_lt_of_eq t.isLt (N_0 : cfg0.N = 25)
  obtain ⟨-, -, -, -, -, -, -, -, -, -, -, -, e0, e1⟩ := tile_index t
  unfold out0_6
  rewrite [View.canon_unit_zero zero_off]
  simp only [View.ld_unit_zero (S := S4000x128) zero_off, View.ld_unit_zero (S := S128x128) zero_off, View.ld_unit_zero (S := S1x128) zero_off]
  funext j
  rewrite [View.read_apply]
  show k0_pay1 (F := Ideal) (xTile m c t) (aTile c A t) (w1Tile m c t) (b1Tile m c t) (w2Tile m c t) (b2Tile m c t) j
    = layerOf m c A (((cfg0.win 6).blk t).view.emb j)
  refine (congrFun (stored_eq m c A t ht) j).trans (congrArg (layerOf m c A) ?_)
  funext a; apply Fin.ext
  match a with
  | ⟨0, _⟩ => show t.val * 4000 + (j 0).val = win0_6.index t (0 : Fin 2) * 4000 + 1 * (j 0).val; rw [e0]; omega
  | ⟨1, _⟩ => show (j 1).val = win0_6.index t (1 : Fin 2) * 128 + 1 * (j 1).val; rw [e1]; omega

end AnySums

/-! ## The result array -/

/-- What the result array ends holding: the layer of the features and the neighbour sums as the region finds them,
    with the argument weights and biases. -/
abbrev result (c : Dev nD) : FVec Ideal S100000x128 .f32 := layerOf m c (V m c (Pipeline.arrRef spec0 1))

/-- WHAT POINT `t` WRITES BACK is block `t` of the result. -/
theorem flushed_eq (c : Dev nD) (t : Fin cfg0.N) :
    (dats m 0 c).flushed 6 t = ((cfg0.win 6).blk t).view.read (Elt Ideal) (result m c) :=
  (flushed6 m c t).trans (block_eq m c (V m c (Pipeline.arrRef spec0 1)) t)

/-- An index of the result array lies in point `t`'s block iff each coordinate lies in the block's range on its axis. -/
theorem mem_tile (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v16).slice (win0_6.rect t)).set ↔ _
  rw [View.set_slice_whole, Rect.mem_set_unit]
  exact Iff.rfl

/-- Row `r` lies in the block of point `r / 4000`: the 25 tiles cover the array. -/
theorem covered (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, e0, e1⟩ := tile_index t
  refine ⟨t, flush0_6 t, ?_⟩
  rw [mem_tile]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- THE RESULT ARRAY after the run is the layer. -/
theorem final (c : Dev nD) : (dats m 0 c).arrAt 6 cfg0.N = result m c :=
  (dats m 0 c).arrAt_eq_of_cover 6 (result m c) (fun t _ => flushed_eq m c t) covered

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.WholeArray

end
-- ==== Proof.RefNet.lean ====
/-
  The reference is the row network over the whole array.

  The reference adds the neighbour sums to the features, multiplies by the transposed first weight matrix, adds the
  first bias to every row, takes the maximum with zero, multiplies by the transposed second weight matrix and adds
  the second bias.  Read at entry `(r, q)`, stage by stage, that is the row network (Proof/RowNet.lean) of row `r` of
  the features and of the neighbour sums: a product with a transposed matrix is the contraction along both second
  axes, and a bias broadcast over the rows is read at its column.  The neighbour sums themselves (a gather of rows
  scattered and added by destination) are kept as one unopened array.
-/
import proofs.«170019_j13529146982749_1_alg».proof.Proof.Gen.ReferenceIdeal.Read
import proofs.«170019_j13529146982749_1_alg».proof.Proof.RowNet

noncomputable section

namespace Cert.ReferenceIdeal.RefNet

open Cert.ReferenceIdeal Cert.ReferenceIdeal.Read Idealize.ShloMosaic Idealize.ShloMosaic.ValueIdx

/-- The left operand of the second product at `(r, q)`, position `k`: entry `(r, k)`. -/
theorem lidx22 (r : Fin 100000) (q k : Fin 128) : lidx_main_v22 (ix2 r q) k = ix2 r k :=
  funext fun a => Fin.ext (by match a with | ⟨0, _⟩ => rfl | ⟨1, _⟩ => rfl)
/-- The transposed second weight matrix at that position: entry `(q, k)` of the matrix itself. -/
theorem ridx22 (r : Fin 100000) (q k : Fin 128) : idx_main_v21 (ridx_main_v22 (ix2 r q) k) = ix2 q k :=
  funext fun a => Fin.ext (by match a with | ⟨0, _⟩ => rfl | ⟨1, _⟩ => rfl)
/-- The left operand of the first product at `(r, k)`, position `l`: entry `(r, l)`. -/
theorem lidx16 (r : Fin 100000) (k l : Fin 128) : lidx_main_v16 (ix2 r k) l = ix2 r l :=
  funext fun a => Fin.ext (by match a with | ⟨0, _⟩ => rfl | ⟨1, _⟩ => rfl)
/-- The transposed first weight matrix at that position: entry `(k, l)` of the matrix itself. -/
theorem ridx16 (r : Fin 100000) (k l : Fin 128) : idx_main_v15 (ridx_main_v16 (ix2 r k) l) = ix2 k l :=
  funext fun a => Fin.ext (by match a with | ⟨0, _⟩ => rfl | ⟨1, _⟩ => rfl)
/-- A bias broadcast to a row and then over the rows is read at its column. -/
theorem bias18 (r : Fin 100000) (k : Fin 128) : idx_main_v17 (idx_main_v18 (ix2 r k)) = ix1 k :=
  funext fun a => Fin.ext (by match a with | ⟨0, _⟩ => rfl)
theorem bias24 (r : Fin 100000) (q : Fin 128) : idx_main_v23 (idx_main_v24 (ix2 r q)) = ix1 q :=
  funext fun a => Fin.ext (by match a with | ⟨0, _⟩ => rfl)

/-- THE REFERENCE'S RESULT is the layer of the features and the neighbour sums. -/
theorem result_eq (x0 : FVec Ideal S100000x128 .f32) (x1 : IVec S2x800000 32) (x2 : FVec Ideal S128x128 .f32) (x3 : FVec Ideal S128 .f32)
    (x4 : FVec Ideal S128x128 .f32) (x5 : FVec Ideal S128 .f32) :
    val_main_v25 (F := Ideal) x0 x1 x2 x3 x4 x5
      = Cert.RowNet.layer x0 (val_main_v13 (F := Ideal) x0 x1) x2 x3 x4 x5 := by
  funext i
  obtain ⟨r, q, rfl⟩ : ∃ (r : Fin 100000) (q : Fin 128), i = ix2 r q := ⟨i 0, i 1, eq_ix2 i⟩
  rw [Cert.RowNet.layer_apply]
  unfold Cert.RowNet.out Cert.RowNet.hidden
  simp only [val_main_v25_apply, val_main_v22_apply, val_main_v24_apply, val_main_v23_apply, val_main_v21_apply,
    val_main_v20_apply, val_main_v19_apply, val_main_v18_apply, val_main_v17_apply, val_main_v16_apply, val_main_v15_apply,
    val_main_v14_apply, val_main_call0_v0_apply, val_main_call0_cst_apply,
    lidx22, ridx22, lidx16, ridx16, bias18, bias24,
    Ideal.addf_def, Ideal.maximumf_def, Ideal.ofBits_def, Ideal.ofBits_zero_f32]

end Cert.ReferenceIdeal.RefNet

end
-- ==== Proof.SameSums.lean ====
/-
  Both programs form the neighbour sums the same way.

  Before anything else both programs take the two rows of the edge list, wrap negative source indices by the number of
  nodes, gather the source rows of the features, and add each gathered row into the row of its destination, starting
  from zeros.  The two programs spell this with the same operations in the same order, so the array of neighbour sums the
  kernel's region finds is, as a term of the features and the edge list, the reference's own stage: nothing about
  gathering or scattering has to be opened.
-/
import proofs.«170019_j13529146982749_1_alg».proof.Proof.Gen.KernelIdeal.Frame
import proofs.«170019_j13529146982749_1_alg».proof.Proof.Gen.ReferenceIdeal.Read
import Idealize.ShloMosaic.Lib.StableHlo.Run

noncomputable section

namespace Cert.Proof.SameSums

open Idealize.ShloMosaic Idealize.ShloMosaic.TcCoe Idealize.SL.Sem

/-- The neighbour sums as the kernel's region finds them: the reference's scatter stage of the kernel's own features
    and edge list. -/
theorem sums_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v13 : FVec Ideal Cert.KernelIdeal.S100000x128 .f32)
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results
  rfl

end Cert.Proof.SameSums

end
-- ==== Proof.lean ====
/-
  A graph-isomorphism layer, tiled over the nodes, against its untiled reference.

  Both programs first form, for every node, the sum of its in-neighbours' feature rows (a gather of source rows,
  scattered and added by destination), by the same operations in the same order.  The reference then runs the two
  dense layers over all 100000 nodes at once; the kernel runs them on 25 tiles of 4000 nodes, with the weights and
  biases resident.  Over the extended reals both compute, at node `r` and output unit `q`,

      ∑ k, max (∑ l, (x[r, l] + a[r, l]) · W1[k, l] + b1[k]) 0 · W2[q, k] + b2[q]

  (Proof/RowNet.lean): the kernel's narrowing to a shorter float format before each product is the identity there, its
  products into a zero accumulator are the plain sums, and a row's result depends on that row alone, so the tiles
  (Proof/TileRow.lean) assemble into the whole array (Proof/WholeArray.lean); the reference is read stage by stage
  (Proof/RefNet.lean); the neighbour sums are one shared unopened term (Proof/SameSums.lean).  No law beyond
  reading both sides at an index is needed, so the finiteness of the inputs is never used.
-/
import proofs.«170019_j13529146982749_1_alg».proof.Defs
import proofs.«170019_j13529146982749_1_alg».proof.Proof.Gen.Kernel
import proofs.«170019_j13529146982749_1_alg».proof.Proof.Gen.Kernel.Skeleton
import proofs.«170019_j13529146982749_1_alg».proof.Proof.Gen.Kernel.Launch
import proofs.«170019_j13529146982749_1_alg».proof.Proof.Gen.Kernel.Points
import proofs.«170019_j13529146982749_1_alg».proof.Proof.Gen.Kernel.Frame
import proofs.«170019_j13529146982749_1_alg».proof.Proof.Gen.KernelIdeal
import proofs.«170019_j13529146982749_1_alg».proof.Proof.Gen.KernelIdeal.Skeleton
import proofs.«170019_j13529146982749_1_alg».proof.Proof.Gen.KernelIdeal.Launch
import proofs.«170019_j13529146982749_1_alg».proof.Proof.Gen.KernelIdeal.Points
import proofs.«170019_j13529146982749_1_alg».proof.Proof.Gen.KernelIdeal.Frame
import proofs.«170019_j13529146982749_1_alg».proof.Proof.Gen.ReferenceIdeal
import proofs.«170019_j13529146982749_1_alg».proof.Proof.Gen.Pre_finite_inputs
import proofs.«170019_j13529146982749_1_alg».proof.Proof.Gen.KernelIdeal.Value
import proofs.«170019_j13529146982749_1_alg».proof.Proof.Gen.ReferenceIdeal.Run
import proofs.«170019_j13529146982749_1_alg».proof.Proof.Gen.ReferenceIdeal.Read
import proofs.«170019_j13529146982749_1_alg».proof.Proof.RowNet
import proofs.«170019_j13529146982749_1_alg».proof.Proof.TileRow
import proofs.«170019_j13529146982749_1_alg».proof.Proof.WholeArray
import proofs.«170019_j13529146982749_1_alg».proof.Proof.RefNet
import proofs.«170019_j13529146982749_1_alg».proof.Proof.SameSums
import Idealize.ShloMosaic.Adequacy
import Idealize.ShloMosaic.Init

noncomputable section

namespace Cert.Proof

open Idealize.ShloMosaic Idealize.ShloMosaic.TcCoe Idealize.SL.Sem

/-! ## The three programs run and keep their arguments -/

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-! ## The kernel's result as a function of its arguments -/

/-- The kernel's result array is the layer of its own arguments, the neighbour sums being the reference's scatter stage
    of the kernel's features and edge list: no host operation before the region touches the features or the weights,
    and the region finds the neighbour sums as both programs compute them. -/
theorem result_of_args (m : (ℓ : Loc Cert.KernelIdeal.nD Cert.KernelIdeal.τ Cert.KernelIdeal.sig) → Buf (Elt Ideal) ℓ) (c : Dev Cert.KernelIdeal.nD) :
    Cert.KernelIdeal.WholeArray.result m c
      = Cert.RowNet.layer (m ((c : Thread Cert.KernelIdeal.nD Cert.KernelIdeal.τ).loc Cert.KernelIdeal.main_arg0))
          (Cert.ReferenceIdeal.Read.val_main_v13 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) :=
  Cert.RowNet.layer_congr (Cert.KernelIdeal.Gen.V_main_arg0 m c) (Cert.Proof.SameSums.sums_eq m c)
    (Cert.KernelIdeal.Gen.V_main_arg2 m c) rfl (Cert.KernelIdeal.Gen.V_main_arg4 m c) rfl

/-! ## The claims -/

/-- From memories agreeing on the arguments both idealized programs end with the layer of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact ((Cert.ReferenceIdeal.Read.val_main_v25_eq (F := Ideal) _ _ _ _ _ _).trans
    (Cert.ReferenceIdeal.RefNet.result_eq _ _ _ _ _ _)).trans (result_of_args m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
